-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩

abbrev nBuf : Space → Nat
  | .hbm => 86
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S128x128, .f32⟩
  | .hbm, ⟨47, _⟩ => ⟨S50000x128, .f32⟩
  | .hbm, ⟨48, _⟩ => ⟨S_, .i32⟩
  | .hbm, ⟨49, _⟩ => ⟨S1650000, .i32⟩
  | .hbm, ⟨50, _⟩ => ⟨S1650000, .i1⟩
  | .hbm, ⟨51, _⟩ => ⟨S_, .i32⟩
  | .hbm, ⟨52, _⟩ => ⟨S1650000, .i32⟩
  | .hbm, ⟨53, _⟩ => ⟨S1650000, .i32⟩
  | .hbm, ⟨54, _⟩ => ⟨S1650000, .i32⟩
  | .hbm, ⟨55, _⟩ => ⟨S1650000x1, .i32⟩
  | .hbm, ⟨56, _⟩ => ⟨S1650000x128, .f32⟩
  | .hbm, ⟨57, _⟩ => ⟨S1650000x1, .f32⟩
  | .hbm, ⟨58, _⟩ => ⟨S1650000x128, .f32⟩
  | .hbm, ⟨59, _⟩ => ⟨S1650000x128, .f32⟩
  | .hbm, ⟨60, _⟩ => ⟨S_, .f32⟩
  | .hbm, ⟨61, _⟩ => ⟨S50000x128, .f32⟩
  | .hbm, ⟨62, _⟩ => ⟨S1650000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S128x128, .f32⟩
  | .hbm, ⟨67, _⟩ => ⟨S50000x128, .f32⟩
  | .hbm, ⟨68, _⟩ => ⟨S_, .i32⟩
  | .hbm, ⟨69, _⟩ => ⟨S1650000, .i32⟩
  | .hbm, ⟨70, _⟩ => ⟨S1650000, .i1⟩
  | .hbm, ⟨71, _⟩ => ⟨S_, .i32⟩
  | .hbm, ⟨72, _⟩ => ⟨S1650000, .i32⟩
  | .hbm, ⟨73, _⟩ => ⟨S1650000, .i32⟩
  | .hbm, ⟨74, _⟩ => ⟨S1650000, .i32⟩
  | .hbm, ⟨75, _⟩ => ⟨S1650000x1, .i32⟩
  | .hbm, ⟨76, _⟩ => ⟨S1650000x128, .f32⟩
  | .hbm, ⟨77, _⟩ => ⟨S1650000x1, .f32⟩
  | .hbm, ⟨78, _⟩ => ⟨S1650000x128, .f32⟩
  | .hbm, ⟨79, _⟩ => ⟨S1650000x128, .f32⟩
  | .hbm, ⟨80, _⟩ => ⟨S_, .f32⟩
  | .hbm, ⟨81, _⟩ => ⟨S50000x128, .f32⟩
  | .hbm, ⟨82, _⟩ => ⟨S1650000x1, .i32⟩
  | .hbm, ⟨83, _⟩ => ⟨S50000x128, .f32⟩
  | .hbm, ⟨84, _⟩ => ⟨S1x128, .f32⟩
  | .hbm, ⟨85, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩

abbrev nBuf : Space → Nat
  | .hbm => 132
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S50000, .i32⟩
  | 7 => ⟨S1x1600000, .i32⟩
  | 8 => ⟨S1600000, .i32⟩
  | 9 => ⟨S1650000, .i32⟩
  | 10 => ⟨S1x1600000, .i32⟩
  | 11 => ⟨S1600000, .i32⟩
  | 12 => ⟨S1650000, .i32⟩
  | 13 => ⟨S_, .f32⟩
  | 14 => ⟨S1650000, .f32⟩
  | 15 => ⟨S_, .f32⟩
  | 16 => ⟨S50000, .f32⟩
  | 17 => ⟨S1650000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S1650000, .i32⟩
  | 29 => ⟨S1650000, .i1⟩
  | 30 => ⟨S_, .i32⟩
  | 31 => ⟨S1650000, .i32⟩
  | 32 => ⟨S1650000, .i32⟩
  | 33 => ⟨S1650000, .i32⟩
  | 34 => ⟨S1650000x1, .i32⟩
  | 35 => ⟨S1650000, .f32⟩
  | 36 => ⟨S_, .i32⟩
  | 37 => ⟨S1650000, .i32⟩
  | 38 => ⟨S1650000, .i1⟩
  | 39 => ⟨S_, .i32⟩
  | 40 => ⟨S1650000, .i32⟩
  | 41 => ⟨S1650000, .i32⟩
  | 42 => ⟨S1650000, .i32⟩
  | 43 => ⟨S1650000x1, .i32⟩
  | 44 => ⟨S1650000, .f32⟩
  | 45 => ⟨S1650000, .f32⟩
  | 46 => ⟨S128x128, .f32⟩
  | 47 => ⟨S50000x128, .f32⟩
  | 48 => ⟨S_, .i32⟩
  | 49 => ⟨S1650000, .i32⟩
  | 50 => ⟨S1650000, .i1⟩
  | 51 => ⟨S_, .i32⟩
  | 52 => ⟨S1650000, .i32⟩
  | 53 => ⟨S1650000, .i32⟩
  | 54 => ⟨S1650000, .i32⟩
  | 55 => ⟨S1650000x1, .i32⟩
  | 56 => ⟨S1650000x128, .f32⟩
  | 57 => ⟨S1650000x1, .f32⟩
  | 58 => ⟨S1650000x128, .f32⟩
  | 59 => ⟨S1650000x128, .f32⟩
  | 60 => ⟨S_, .f32⟩
  | 61 => ⟨S50000x128, .f32⟩
  | 62 => ⟨S1650000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000, .i32⟩
  | 71 => ⟨S1x1600000, .i32⟩
  | 72 => ⟨S1600000, .i32⟩
  | 73 => ⟨S1650000, .i32⟩
  | 74 => ⟨S1x1600000, .i32⟩
  | 75 => ⟨S1600000, .i32⟩
  | 76 => ⟨S1650000, .i32⟩
  | 77 => ⟨S_, .f32⟩
  | 78 => ⟨S1650000, .f32⟩
  | 79 => ⟨S_, .f32⟩
  | 80 => ⟨S50000, .f32⟩
  | 81 => ⟨S1650000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S1650000, .i32⟩
  | 93 => ⟨S1650000, .i1⟩
  | 94 => ⟨S_, .i32⟩
  | 95 => ⟨S1650000, .i32⟩
  | 96 => ⟨S1650000, .i32⟩
  | 97 => ⟨S1650000, .i32⟩
  | 98 => ⟨S1650000x1, .i32⟩
  | 99 => ⟨S1650000, .f32⟩
  | 100 => ⟨S_, .i32⟩
  | 101 => ⟨S1650000, .i32⟩
  | 102 => ⟨S1650000, .i1⟩
  | 103 => ⟨S_, .i32⟩
  | 104 => ⟨S1650000, .i32⟩
  | 105 => ⟨S1650000, .i32⟩
  | 106 => ⟨S1650000, .i32⟩
  | 107 => ⟨S1650000x1, .i32⟩
  | 108 => ⟨S1650000, .f32⟩
  | 109 => ⟨S1650000, .f32⟩
  | 110 => ⟨S128x128, .f32⟩
  | 111 => ⟨S50000x128, .f32⟩
  | 112 => ⟨S_, .i32⟩
  | 113 => ⟨S1650000, .i32⟩
  | 114 => ⟨S1650000, .i1⟩
  | 115 => ⟨S_, .i32⟩
  | 116 => ⟨S1650000, .i32⟩
  | 117 => ⟨S1650000, .i32⟩
  | 118 => ⟨S1650000, .i32⟩
  | 119 => ⟨S1650000x1, .i32⟩
  | 120 => ⟨S1650000x128, .f32⟩
  | 121 => ⟨S1650000x1, .f32⟩
  | 122 => ⟨S1650000x128, .f32⟩
  | 123 => ⟨S1650000x128, .f32⟩
  | 124 => ⟨S_, .f32⟩
  | 125 => ⟨S50000x128, .f32⟩
  | 126 => ⟨S1650000x1, .i32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_17 : Ref sig .tc := ⟨.hbm, 112, rfl⟩
abbrev main_v81 : Ref sig .tc := ⟨.hbm, 113, rfl⟩
abbrev main_v82 : Ref sig .tc := ⟨.hbm, 114, rfl⟩
abbrev main_c_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  transposes_S128x128_S128x128_1_0 : S128x128.Transposes [1, 0] S128x128
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

class Facts : Prop extends Facts₀ where

variable [Facts]
-- ==== Proof.Spec.lean ====
/-
  The two-layer graph convolution as one function of its six arguments.

  With row = (edge sources ++ 0..N-1), col = (edge targets ++ 0..N-1) and deg the number of times a node occurs in col,
  norm e = invsqrt (deg (row e)) * invsqrt (deg (col e)), where invsqrt d = d^(-1/2) for d > 0 and 0 otherwise. One
  propagation step sends a node matrix h to the matrix whose row v is the sum over the edges e with col e = v of
  norm e * h (row e). The network is

      out = propagate ((relu (propagate (x * W1ᵀ) + b1)) * W2ᵀ) + b2 + x.

  Every stage below is a composition of the array operations the host program is written in, over plain values.
-/
import proofs.«164835_j54700703482252_1_alg».proof.ReferenceIdeal
import proofs.«164835_j54700703482252_1_alg».proof.Proof.Gen.ReferenceIdeal

noncomputable section

namespace Cert.Spec

open Idealize.ShloMosaic Cert.ReferenceIdeal Cert.ReferenceIdeal.Facts₀

variable {F : FTy → Type} [FloatOps F]

/-- The edge list's sources followed by every node (a self loop per node). -/
def rowOf (e : (⟨S2x1600000, .i32⟩ : BufTy).Contents (Elt F)) : (⟨S1650000, .i32⟩ : BufTy).Contents (Elt F) :=
  concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0

/-- The edge list's targets followed by every node. -/
def colOf (e : (⟨S2x1600000, .i32⟩ : BufTy).Contents (Elt F)) : (⟨S1650000, .i32⟩ : BufTy).Contents (Elt F) :=
  concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0

/-- A node list with negative entries wrapped once by the node count, as a column of start indices. -/
def wrapIdx (r : (⟨S1650000, .i32⟩ : BufTy).Contents (Elt F)) : (⟨S1650000x1, .i32⟩ : BufTy).Contents (Elt F) :=
  broadcastInDim S1650000x1 ![0] bcast_S1650000_S1650000x1_0 (select (cmpi .slt r (broadcastInDim S1650000 ![] bcast_S_S1650000 (constantI S_ 32 0#32))) (addi r (broadcastInDim S1650000 ![] bcast_S_S1650000 (constantI S_ 32 50000#32))) r)

/-- Each node's degree: one added at every occurrence in the target list. -/
def degOf (col : (⟨S1650000, .i32⟩ : BufTy).Contents (Elt F)) : FVec F S50000 .f32 :=
  Host.scatterAdd scatter_S50000_S1650000x1_S1650000_n_0_0_1 (broadcastInDim S50000 ![] bcast_S_S50000 (constant S_ .f32 0x00000000#32)) (broadcastInDim S1650000x1 ![0] bcast_S1650000_S1650000x1_0 col) (broadcastInDim S1650000 ![] bcast_S_S1650000 (constant S_ .f32 0x3F800000#32))

/-- The inverse square root of a positive degree, zero otherwise. -/
def invSqrtOf (deg : FVec F S50000 .f32) : FVec F S50000 .f32 :=
  select (cmpf .ogt deg (broadcastInDim S50000 ![] bcast_S_S50000 (constant S_ .f32 0x00000000#32))) (Host.rsqrt deg) (broadcastInDim S50000 ![] bcast_S_S50000 (id (constant S_ .f32 0x00000000#32)))

/-- Each edge's weight: the product of the inverse square roots of its two ends' degrees. -/
def normOf (isq : FVec F S50000 .f32) (row col : (⟨S1650000, .i32⟩ : BufTy).Contents (Elt F)) : FVec F S1650000 .f32 :=
  mulf (Host.gather gather_S50000_S1650000x1_S1650000_n_0_n_n_0_1_1 isq (wrapIdx row)) (Host.gather gather_S50000_S1650000x1_S1650000_n_0_n_n_0_1_1 isq (wrapIdx col))

/-- One propagation step: gather the source rows, weight them, add them into the target rows. -/
def aggOf (h : FVec F S50000x128 .f32) (row col : (⟨S1650000, .i32⟩ : BufTy).Contents (Elt F)) (nrm : FVec F S1650000 .f32) : FVec F S50000x128 .f32 :=
  Host.scatterAdd scatter_S50000x128_S1650000x1_S1650000x128_1_0_0_1 (broadcastInDim S50000x128 ![] bcast_S_S50000x128 (constant S_ .f32 0x00000000#32)) (broadcastInDim S1650000x1 ![0] bcast_S1650000_S1650000x1_0 col) (mulf (Host.gather gather_S50000x128_S1650000x1_S1650000x128_1_0_n_n_0_1_1128 h (wrapIdx row)) (broadcastInDim S1650000x128 ![0, 1] bcast_S1650000x1_S1650000x128_0_1 (broadcastInDim S1650000x1 ![0] bcast_S1650000_S1650000x1_0 nrm)))

/-- The product of a node matrix with a 128×128 matrix. -/
def prodOf (a : FVec F S50000x128 .f32) (wt : FVec F S128x128 .f32) : FVec F S50000x128 .f32 :=
  Host.dotGeneral dot_S50000x128_S128x128_S50000x128_1_0_0_1_n_n none a wt

/-- The dense product with the transposed weight matrix. -/
def denseOf (a : FVec F S50000x128 .f32) (w : FVec F S128x128 .f32) : FVec F S50000x128 .f32 :=
  prodOf a (transpose S128x128 [1, 0] w transposes_S128x128_S128x128_1_0)

/-- A 1×128 row added to every node. -/
def biasRowOf (s : FVec F S50000x128 .f32) (r : FVec F S1x128 .f32) : FVec F S50000x128 .f32 :=
  addf s (broadcastInDim S50000x128 ![0, 1] bcast_S1x128_S50000x128_0_1 r)

/-- A bias vector added to every node. -/
def biasOf (s : FVec F S50000x128 .f32) (b : FVec F S128 .f32) : FVec F S50000x128 .f32 :=
  biasRowOf s (broadcastInDim S1x128 ![1] bcast_S128_S1x128_1 b)

/-- The positive part. -/
def reluOf (s : FVec F S50000x128 .f32) : FVec F S50000x128 .f32 :=
  maximumf s (broadcastInDim S50000x128 ![] bcast_S_S50000x128 (constant S_ .f32 0x00000000#32))

/-- The whole network. -/
def outOf (x : FVec F S50000x128 .f32) (e : (⟨S2x1600000, .i32⟩ : BufTy).Contents (Elt F)) (w1 : FVec F S128x128 .f32) (b1 : FVec F S128 .f32)
    (w2 : FVec F S128x128 .f32) (b2 : FVec F S128 .f32) : FVec F S50000x128 .f32 :=
  addf (biasOf (aggOf (denseOf (reluOf (biasOf (aggOf (denseOf x w1) (rowOf e) (colOf e)
      (normOf (invSqrtOf (degOf (colOf e))) (rowOf e) (colOf e))) b1)) w2) (rowOf e) (colOf e)
      (normOf (invSqrtOf (degOf (colOf e))) (rowOf e) (colOf e))) b2) x

end Cert.Spec

end
-- ==== Proof.KHost.lean ====
/-
  The host stretches of the kernel program, read as values.

  From any buffer contents, each stretch of host operations leaves in the buffers it writes the stage of the network
  those operations compute (over whatever the stretch's operands held), and leaves every other buffer as it was.
-/
import proofs.«164835_j54700703482252_1_alg».proof.Proof.Gen.KernelIdeal.Frame
import proofs.«164835_j54700703482252_1_alg».proof.Proof.Spec
import Idealize.ShloMosaic.Lib.StableHlo.Run

set_option maxHeartbeats 2000000

noncomputable section

namespace Cert.KernelIdeal.Host

open Idealize.ShloMosaic Idealize.ShloMosaic.TcCoe Idealize.SL.Sem Cert.KernelIdeal Cert.KernelIdeal.Gen

variable {F : FTy → Type} [FloatOps F]

/-- A buffer that no operation of a stretch writes keeps its contents across the stretch. -/
macro "host_keeps " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-- The contents a stretch leaves in a buffer it writes: its operations' composed term, which the stage's definition unfolds to. -/
macro "host_reads" : tactic => `(tactic| (after_results_simp <;> (try rfl)))

variable (W : Valuation τ sig (Elt F))

/-! ## The first stretch: the edge lists, the degrees, the inverse square roots' two branches -/

theorem row0 : StableHlo.after hostOps0 W (Proc.devRef .tc main_v3) = Spec.rowOf (W (Proc.devRef .tc main_arg1)) := by
  host_reads

theorem col0 : StableHlo.after hostOps0 W (Proc.devRef .tc main_v6) = Spec.colOf (W (Proc.devRef .tc main_arg1)) := by
  host_reads

theorem gt0 : StableHlo.after hostOps0 W (Proc.devRef .tc main_v12)
    = cmpf .ogt (Spec.degOf (Spec.colOf (W (Proc.devRef .tc main_arg1)))) (broadcastInDim S50000 ![] Facts₀.bcast_S_S50000 (constant S_ .f32 0x00000000#32)) := by
  host_reads

theorem rsq0 : StableHlo.after hostOps0 W (Proc.devRef .tc main_v13) = Host.rsqrt (Spec.degOf (Spec.colOf (W (Proc.devRef .tc main_arg1)))) := by
  host_reads

theorem zero0 : StableHlo.after hostOps0 W (Proc.devRef .tc main_cst_2) = constant S_ .f32 0x00000000#32 := by
  host_reads

/-! ## The second stretch: the choice between the two branches -/

theorem isq1 : StableHlo.after hostOps0_1 W (Proc.devRef .tc main_v14)
    = select (W (Proc.devRef .tc main_v12)) (W (Proc.devRef .tc main_v13)) (broadcastInDim S50000 ![] Facts₀.bcast_S_S50000 (id (W (Proc.devRef .tc main_cst_2)))) := by
  host_reads

/-! ## The third stretch: the edge weights and the first weight matrix transposed -/

theorem nrm2 : StableHlo.after hostOps0_2 W (Proc.devRef .tc main_v29)
    = Spec.normOf (W (Proc.devRef .tc main_v14)) (W (Proc.devRef .tc main_v3)) (W (Proc.devRef .tc main_v6)) := by
  host_reads

theorem wt2 : StableHlo.after hostOps0_2 W (Proc.devRef .tc main_v30)
    = transpose S128x128 [1, 0] (W (Proc.devRef .tc main_arg2)) Facts₀.transposes_S128x128_S128x128_1_0 := by
  host_reads

/-! ## Between the first product and the first epilogue: one propagation step, and the bias as a row -/

theorem agg3 : StableHlo.after hostOps1 W (Proc.devRef .tc main_v44)
    = Spec.aggOf (W (Proc.devRef .tc main_v31)) (W (Proc.devRef .tc main_v3)) (W (Proc.devRef .tc main_v6)) (W (Proc.devRef .tc main_v29)) := by
  host_reads

theorem bias3 : StableHlo.after hostOps1 W (Proc.devRef .tc main_v45)
    = shapeCast S1x128 (W (Proc.devRef .tc main_arg3)) Facts₀.shapeCasts_S128_S1x128 := by
  host_reads

/-! ## Before the second product: the second weight matrix transposed -/

theorem wt4 : StableHlo.after hostOps2 W (Proc.devRef .tc main_v47)
    = transpose S128x128 [1, 0] (W (Proc.devRef .tc main_arg4)) Facts₀.transposes_S128x128_S128x128_1_0 := by
  host_reads

/-! ## Between the second product and the second epilogue: the second propagation step and bias row -/

theorem agg5 : StableHlo.after hostOps3 W (Proc.devRef .tc main_v61)
    = Spec.aggOf (W (Proc.devRef .tc main_v48)) (W (Proc.devRef .tc main_v3)) (W (Proc.devRef .tc main_v6)) (W (Proc.devRef .tc main_v29)) := by
  host_reads

theorem bias5 : StableHlo.after hostOps3 W (Proc.devRef .tc main_v62)
    = shapeCast S1x128 (W (Proc.devRef .tc main_arg5)) Facts₀.shapeCasts_S128_S1x128 := by
  host_reads

end Cert.KernelIdeal.Host

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KProd.lean ====
/-
  The product region of the first layer, read as a value.

  It runs over ten row blocks of 5000 nodes. At a block the body multiplies the block's rows by the whole 128×128
  matrix (the narrowing to a shorter float format before the product is the identity on exact values), so entry (p, q) of
  what it stores is the sum over k of row p at k times the matrix at (k, q): the same sum the whole-array product has at
  row (5000·t + p). The ten blocks tile the node axis, so the region's output array ends as the whole product.
-/
import proofs.«164835_j54700703482252_1_alg».proof.Proof.Gen.KernelIdeal.Frame
import proofs.«164835_j54700703482252_1_alg».proof.Proof.Spec
import proofs.«164835_j54700703482252_1_alg».proof.Proof.LibMatmul
import Idealize.ShloMosaic.Lib.Pipeline.Value
import Idealize.ShloMosaic.Lib.ValueIdx

set_option maxRecDepth 16384

noncomputable section

namespace Cert.KernelIdeal.Prod

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- The whole-array product at (r, q). -/
theorem prodOf_apply (a : FVec Ideal Cert.ReferenceIdeal.S50000x128 .f32) (wt : FVec Ideal Cert.ReferenceIdeal.S128x128 .f32) (r : Fin 50000) (q : Fin 128) :
    Cert.Spec.prodOf a wt (ix2 r q) = ∑ k : Fin 128, a (ix2 r k) * wt (ix2 k q) :=
  Cert.Matmul.dotGeneral_plain_apply (M := 50000) (K := 128) (N := 128) none _ a wt r q

/-- The body's payload at (p, q). -/
theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  simp only [shapeCast_self]
  exact Cert.Matmul.matmul_plain_apply (M := 5000) (K := 128) (N := 128) none _ _ p q

variable (V : (c : Dev nD) → (b : Ref sig .tc) → Buf (Elt Ideal) ((c : Thread nD τ).loc b))

/-! ## The product region of the first layer -/

/-- The index maps over the grid: the row blocks' and the output's block index on the node axis is the same, below ten;
    every other block index is zero. -/
theorem idx0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 ∧ win0_2.index t (0 : Fin 2) ≤ 9 :=
  (by decide +kernel : ∀ t : Fin grid0.N, _)

/-- Every row block is some point's. -/
theorem onto0 : ∀ q0 : Fin 10, ∃ t : Fin cfg0.N, win0_2.index t (0 : Fin 2) = q0.val :=
  (by decide +kernel : ∀ q0 : Fin 10, ∃ t : Fin grid0.N, win0_2.index t (0 : Fin 2) = q0.val)

/-- What point `t` writes back is block `t` of the whole product of the arrays the region finds. -/
theorem flushed0 (c : Dev nD) (t : Fin cfg0.N) :
    (dat0 V c).flushed 2 t = ((cfg0.win 2).blk t).view.read (Elt Ideal) (Cert.Spec.prodOf (F := Ideal) (V c main_arg0) (V c main_v30)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx0 t
  funext j
  obtain ⟨p, q, rfl⟩ : ∃ (p : Fin 5000) (q : Fin 128), j = ix2 p q := ⟨j 0, j 1, eq_ix2 j⟩
  have hp : p.val < 5000 := p.isLt
  have hr : win0_2.index t (0 : Fin 2) * 5000 + p.val < 50000 := by omega
  have hemb : ((cfg0.win 2).blk t).view.emb (ix2 p q) = ix2 (⟨win0_2.index t (0 : Fin 2) * 5000 + p.val, hr⟩ : Fin 50000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  show k0_pay1 (iblk0 V c 0 t) (iblk0 V c 1 t) (ix2 p q)
    = Cert.Spec.prodOf (F := Ideal) (V c main_arg0) (V c main_v30) (((cfg0.win 2).blk t).view.emb (ix2 p q))
  rw [hemb]
  refine (pay0_apply _ _ p q).trans ((Finset.sum_congr rfl fun k _ => ?_).trans (prodOf_apply _ _ _ q).symm)
  have h0 : iblk0 V c 0 t (ix2 p k) = V c main_arg0 (ix2 (⟨win0_2.index t (0 : Fin 2) * 5000 + p.val, hr⟩ : Fin 50000) k) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  have h1 : iblk0 V c 1 t (ix2 k q) = V c main_v30 (ix2 k q) := by
    show V c main_v30 (((cfg0.win 1).blk t).view.emb (ix2 k q)) = _
    refine congrArg (V c main_v30) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [h0, h1]

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every index of the output array is in some point's block: the point of its row block. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := onto0 ⟨(i 0).val / 5000, by omega⟩
  have ht' : win0_2.index t (0 : Fin 2) = (i 0).val / 5000 := ht
  obtain ⟨e0, e1, e2, e3, e4, e5⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The region's output array ends as the whole product of the arrays it finds. -/
theorem prod0 (c : Dev nD) : (dat0 V c).arrAt 2 cfg0.N = Cert.Spec.prodOf (F := Ideal) (V c main_arg0) (V c main_v30) :=
  (dat0 V c).arrAt_eq_of_cover 2 _ (fun t _ => flushed0 V c t) (cover0)

end Cert.KernelIdeal.Prod

end
-- ==== Proof.KProd2.lean ====
/-
  The product region of the second layer, read as a value.

  It runs over ten row blocks of 5000 nodes. At a block the body multiplies the block's rows by the whole 128×128
  matrix (the narrowing to a shorter float format before the product is the identity on exact values), so entry (p, q) of
  what it stores is the sum over k of row p at k times the matrix at (k, q): the same sum the whole-array product has at
  row (5000·t + p). The ten blocks tile the node axis, so the region's output array ends as the whole product.
-/
import proofs.«164835_j54700703482252_1_alg».proof.Proof.Gen.KernelIdeal.Frame
import proofs.«164835_j54700703482252_1_alg».proof.Proof.Spec
import proofs.«164835_j54700703482252_1_alg».proof.Proof.LibMatmul
import Idealize.ShloMosaic.Lib.Pipeline.Value
import Idealize.ShloMosaic.Lib.ValueIdx

set_option maxRecDepth 16384

noncomputable section

namespace Cert.KernelIdeal.Prod2

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- The whole-array product at (r, q). -/
theorem prodOf_apply (a : FVec Ideal Cert.ReferenceIdeal.S50000x128 .f32) (wt : FVec Ideal Cert.ReferenceIdeal.S128x128 .f32) (r : Fin 50000) (q : Fin 128) :
    Cert.Spec.prodOf a wt (ix2 r q) = ∑ k : Fin 128, a (ix2 r k) * wt (ix2 k q) :=
  Cert.Matmul.dotGeneral_plain_apply (M := 50000) (K := 128) (N := 128) none _ a wt r q

/-- The body's payload at (p, q). -/
theorem pay2_apply (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  simp only [shapeCast_self]
  exact Cert.Matmul.matmul_plain_apply (M := 5000) (K := 128) (N := 128) none _ _ p q

variable (V : (c : Dev nD) → (b : Ref sig .tc) → Buf (Elt Ideal) ((c : Thread nD τ).loc b))

/-! ## The product region of the second layer -/

/-- The index maps over the grid: the row blocks' and the output's block index on the node axis is the same, below ten;
    every other block index is zero. -/
theorem idx2 : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0 ∧ win2_2.index t (1 : Fin 2) = 0 ∧ win2_2.index t (0 : Fin 2) ≤ 9 :=
  (by decide +kernel : ∀ t : Fin grid2.N, _)

/-- Every row block is some point's. -/
theorem onto2 : ∀ q0 : Fin 10, ∃ t : Fin cfg2.N, win2_2.index t (0 : Fin 2) = q0.val :=
  (by decide +kernel : ∀ q0 : Fin 10, ∃ t : Fin grid2.N, win2_2.index t (0 : Fin 2) = q0.val)

/-- What point `t` writes back is block `t` of the whole product of the arrays the region finds. -/
theorem flushed2 (c : Dev nD) (t : Fin cfg2.N) :
    (dat2 V c).flushed 2 t = ((cfg2.win 2).blk t).view.read (Elt Ideal) (Cert.Spec.prodOf (F := Ideal) (V c main_v46) (V c main_v47)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx2 t
  funext j
  obtain ⟨p, q, rfl⟩ : ∃ (p : Fin 5000) (q : Fin 128), j = ix2 p q := ⟨j 0, j 1, eq_ix2 j⟩
  have hp : p.val < 5000 := p.isLt
  have hr : win2_2.index t (0 : Fin 2) * 5000 + p.val < 50000 := by omega
  have hemb : ((cfg2.win 2).blk t).view.emb (ix2 p q) = ix2 (⟨win2_2.index t (0 : Fin 2) * 5000 + p.val, hr⟩ : Fin 50000) q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 128 + 1 * q.val = q.val; omega
  show k2_pay1 (iblk2 V c 0 t) (iblk2 V c 1 t) (ix2 p q)
    = Cert.Spec.prodOf (F := Ideal) (V c main_v46) (V c main_v47) (((cfg2.win 2).blk t).view.emb (ix2 p q))
  rw [hemb]
  refine (pay2_apply _ _ p q).trans ((Finset.sum_congr rfl fun k _ => ?_).trans (prodOf_apply _ _ _ q).symm)
  have h0 : iblk2 V c 0 t (ix2 p k) = V c main_v46 (ix2 (⟨win2_2.index t (0 : Fin 2) * 5000 + p.val, hr⟩ : Fin 50000) k) := by
    show V c main_v46 (((cfg2.win 0).blk t).view.emb (ix2 p k)) = _
    refine congrArg (V c main_v46) ?_
    funext a; apply Fin.ext
    match a with
    | ⟨0, _⟩ => show win2_0.index t (0 : Fin 2) * 5000 + 1 * p.val = win2_2.index t (0 : Fin 2) * 5000 + p.val; omega
    | ⟨1, _⟩ => show win2_0.index t (1 : Fin 2) * 128 + 1 * k.val = k.val; omega
  have h1 : iblk2 V c 1 t (ix2 k q) = V c main_v47 (ix2 k q) := by
    show V c main_v47 (((cfg2.win 1).blk t).view.emb (ix2 k q)) = _
    refine congrArg (V c main_v47) ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  rw [h0, h1]

/-- An index of the output array is in point `t`'s block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Every index of the output array is in some point's block: the point of its row block. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := onto2 ⟨(i 0).val / 5000, by omega⟩
  have ht' : win2_2.index t (0 : Fin 2) = (i 0).val / 5000 := ht
  obtain ⟨e0, e1, e2, e3, e4, e5⟩ := idx2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The region's output array ends as the whole product of the arrays it finds. -/
theorem prod2 (c : Dev nD) : (dat2 V c).arrAt 2 cfg2.N = Cert.Spec.prodOf (F := Ideal) (V c main_v46) (V c main_v47) :=
  (dat2 V c).arrAt_eq_of_cover 2 _ (fun t _ => flushed2 V c t) (cover2)

end Cert.KernelIdeal.Prod2

end
-- ==== Proof.KPost.lean ====
/-
  The two epilogue regions of the kernel program, read as values.

  Each runs over ten row blocks of 5000 nodes and is pointwise. At (p, q) of a block the first stores the larger of zero
  and the block's entry plus the bias row's entry q; the second stores the block's entry plus the bias row's entry q plus
  the residual block's entry. The whole-array stage has the same value at row (5000·t + p), and the ten blocks tile the
  node axis, so each region's output array ends as the whole-array stage.
-/
import proofs.«164835_j54700703482252_1_alg».proof.Proof.Gen.KernelIdeal.Frame
import proofs.«164835_j54700703482252_1_alg».proof.Proof.Spec
import Idealize.ShloMosaic.Lib.Pipeline.Value
import Idealize.ShloMosaic.Lib.ValueIdx

set_option maxRecDepth 16384

noncomputable section

namespace Cert.KernelIdeal.Post

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- The zero both programs compare with and start their sums from. -/
abbrev zeroE : Ideal .f32 := Ideal.ofBits .f32 0x00000000#32

/-! ## The whole-array stages at an index -/

/-- A 1×128 row spread over the nodes, at (r, q). -/
theorem rowBcast_apply (b : FVec Ideal Cert.ReferenceIdeal.S1x128 .f32) (r : Fin 50000) (q : Fin 128) :
    broadcastInDim Cert.ReferenceIdeal.S50000x128 ![0, 1] Cert.ReferenceIdeal.Facts₀.bcast_S1x128_S50000x128_0_1 b (ix2 r q) = b (ix2 0 q) :=
  broadcastInDim_apply _ _ b (ix2 r q) (ix2 0 q) (fun a => by match a with | ⟨0, _⟩ => rfl | ⟨1, _⟩ => rfl)

/-- The biased stage at (r, q). -/
theorem biasRowOf_apply (s : FVec Ideal Cert.ReferenceIdeal.S50000x128 .f32) (b : FVec Ideal Cert.ReferenceIdeal.S1x128 .f32) (r : Fin 50000) (q : Fin 128) :
    Cert.Spec.biasRowOf s b (ix2 r q) = s (ix2 r q) + b (ix2 0 q) := by
  unfold Cert.Spec.biasRowOf
  exact congrArg (fun z => s (ix2 r q) + z) (rowBcast_apply b r q)

/-- The positive part at (r, q). -/
theorem reluOf_apply (s : FVec Ideal Cert.ReferenceIdeal.S50000x128 .f32) (r : Fin 50000) (q : Fin 128) :
    Cert.Spec.reluOf s (ix2 r q) = max (s (ix2 r q)) zeroE := rfl

/-! ## The bodies' payloads at an index -/

/-- A 1×128 row spread over a block, at (p, q). -/
theorem blockBcast_apply (x1 : Vec Ideal S1x128 .f32) (p : Fin 5000) (q : Fin 128) :
    broadcastTo S5000x128 x1 Facts₀.broadcasts_S1x128_S5000x128 (ix2 p q) = x1 (ix2 0 q) :=
  broadcastTo_apply x1 _ (ix2 p q) (ix2 0 q) (fun a => by match a with | ⟨0, _⟩ => rfl | ⟨1, _⟩ => rfl)

/-- The first epilogue's payload at (p, q). -/
theorem pay1_apply (x0 : Vec Ideal S5000x128 .f32) (x1 : Vec Ideal S1x128 .f32) (p : Fin 5000) (q : Fin 128) :
    k1_pay1 (F := Ideal) x0 x1 (ix2 p q) = max (x0 (ix2 p q) + x1 (ix2 0 q)) zeroE := by
  unfold k1_pay1
  simp only [shapeCast_self]
  exact congrArg (fun z => max (x0 (ix2 p q) + z) zeroE) (blockBcast_apply x1 p q)

/-- The second epilogue's payload at (p, q). -/
theorem pay3_apply (x0 : Vec Ideal S5000x128 .f32) (x1 : Vec Ideal S1x128 .f32) (x2 : Vec Ideal S5000x128 .f32) (p : Fin 5000) (q : Fin 128) :
    k3_pay1 (F := Ideal) x0 x1 x2 (ix2 p q) = (x0 (ix2 p q) + x1 (ix2 0 q)) + x2 (ix2 p q) := by
  unfold k3_pay1
  simp only [shapeCast_self]
  exact congrArg (fun z => (x0 (ix2 p q) + z) + x2 (ix2 p q)) (blockBcast_apply x1 p q)

variable (V : (c : Dev nD) → (b : Ref sig .tc) → Buf (Elt Ideal) ((c : Thread nD τ).loc b))

/-! ## The first epilogue -/

/-- The index maps over the grid: the input's and the output's block index on the node axis is the same, below ten;
    every other block index is zero. -/
theorem idx1 : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0 ∧ win1_2.index t (1 : Fin 2) = 0 ∧ win1_2.index t (0 : Fin 2) ≤ 9 :=
  (by decide +kernel : ∀ t : Fin grid1.N, _)

/-- Every row block is some point's. -/
theorem onto1 : ∀ q0 : Fin 10, ∃ t : Fin cfg1.N, win1_2.index t (0 : Fin 2) = q0.val :=
  (by decide +kernel : ∀ q0 : Fin 10, ∃ t : Fin grid1.N, win1_2.index t (0 : Fin 2) = q0.val)

/-- What point `t` writes back is block `t` of the positive part of the biased input array. -/
theorem flushed1 (c : Dev nD) (t : Fin cfg1.N) :
    (dat1 V c).flushed 2 t = ((cfg1.win 2).blk t).view.read (Elt Ideal) (Cert.Spec.reluOf (F := Ideal) (Cert.Spec.biasRowOf (V c main_v44) (V c main_v45))) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx1 t
  funext j
  obtain ⟨p, q, rfl⟩ : ∃ (p : Fin 5000) (q : Fin 128), j = ix2 p q := ⟨j 0, j 1, eq_ix2 j⟩
  have hp : p.val < 5000 := p.isLt
  have hr : win1_2.index t (0 : Fin 2) * 5000 + p.val < 50000 := by omega
  have hemb : ((cfg1.win 2).blk t).view.emb (ix2 p q) = ix2 (⟨win1_2.index t (0 : Fin 2) * 5000 + p.val, hr⟩ : Fin 50000) q := by
    funext a; apply Fin.ext
    match a with
    | ⟨0, _⟩ => show win1_2.index t (0 : Fin 2) * 5000 + 1 * p.val = win1_2.index t (0 : Fin 2) * 5000 + p.val; omega
    | ⟨1, _⟩ => show win1_2.index t (1 : Fin 2) * 128 + 1 * q.val = q.val; omega
  show k1_pay1 (iblk1 V c 0 t) (iblk1 V c 1 t) (ix2 p q)
    = Cert.Spec.reluOf (F := Ideal) (Cert.Spec.biasRowOf (V c main_v44) (V c main_v45)) (((cfg1.win 2).blk t).view.emb (ix2 p q))
  rw [hemb]
  refine (pay1_apply _ _ p q).trans (Eq.trans ?_ ((reluOf_apply _ _ q).trans (congrArg (fun z => max z zeroE) (biasRowOf_apply _ _ _ q))).symm)
  have h0 : iblk1 V c 0 t (ix2 p q) = V c main_v44 (ix2 (⟨win1_2.index t (0 : Fin 2) * 5000 + p.val, hr⟩ : Fin 50000) q) := by
    show V c main_v44 (((cfg1.win 0).blk t).view.emb (ix2 p q)) = _
    refine congrArg (V c main_v44) ?_
    funext a; apply Fin.ext
    match a with
    | ⟨0, _⟩ => show win1_0.index t (0 : Fin 2) * 5000 + 1 * p.val = win1_2.index t (0 : Fin 2) * 5000 + p.val; omega
    | ⟨1, _⟩ => show win1_0.index t (1 : Fin 2) * 128 + 1 * q.val = q.val; omega
  have h1 : iblk1 V c 1 t (ix2 0 q) = V c main_v45 (ix2 0 q) := by
    show V c main_v45 (((cfg1.win 1).blk t).view.emb (ix2 0 q)) = _
    refine congrArg (V c main_v45) ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega
  rw [h0, h1]

/-- An index of the output array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Every index of the output array is in some point's block: the point of its row block. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := onto1 ⟨(i 0).val / 5000, by omega⟩
  have ht' : win1_2.index t (0 : Fin 2) = (i 0).val / 5000 := ht
  obtain ⟨e0, e1, e2, e3, e4, e5⟩ := idx1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The region's output array ends as the positive part of the biased input array. -/
theorem post1 (c : Dev nD) : (dat1 V c).arrAt 2 cfg1.N = Cert.Spec.reluOf (F := Ideal) (Cert.Spec.biasRowOf (V c main_v44) (V c main_v45)) :=
  (dat1 V c).arrAt_eq_of_cover 2 _ (fun t _ => flushed1 V c t) (cover1)

/-! ## The second epilogue -/

/-- The index maps over the grid: the two inputs' and the output's block index on the node axis is the same, below ten;
    every other block index is zero. -/
theorem idx3 : ∀ t : Fin cfg3.N, win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = win3_3.index t (0 : Fin 2) ∧ win3_2.index t (1 : Fin 2) = 0
    ∧ win3_3.index t (1 : Fin 2) = 0 ∧ win3_3.index t (0 : Fin 2) ≤ 9 :=
  (by decide +kernel : ∀ t : Fin grid3.N, _)

/-- Every row block is some point's. -/
theorem onto3 : ∀ q0 : Fin 10, ∃ t : Fin cfg3.N, win3_3.index t (0 : Fin 2) = q0.val :=
  (by decide +kernel : ∀ q0 : Fin 10, ∃ t : Fin grid3.N, win3_3.index t (0 : Fin 2) = q0.val)

/-- What point `t` writes back is block `t` of the biased input array plus the residual array. -/
theorem flushed3 (c : Dev nD) (t : Fin cfg3.N) :
    (dat3 V c).flushed 3 t = ((cfg3.win 3).blk t).view.read (Elt Ideal) (addf (F := Ideal) (Cert.Spec.biasRowOf (V c main_v61) (V c main_v62)) (V c main_arg0)) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz]
  obtain ⟨e0, e1, e2, e3, e4, e5, e6, e7⟩ := idx3 t
  funext j
  obtain ⟨p, q, rfl⟩ : ∃ (p : Fin 5000) (q : Fin 128), j = ix2 p q := ⟨j 0, j 1, eq_ix2 j⟩
  have hp : p.val < 5000 := p.isLt
  have hr : win3_3.index t (0 : Fin 2) * 5000 + p.val < 50000 := by omega
  have hemb : ((cfg3.win 3).blk t).view.emb (ix2 p q) = ix2 (⟨win3_3.index t (0 : Fin 2) * 5000 + p.val, hr⟩ : Fin 50000) q := by
    funext a; apply Fin.ext
    match a with
    | ⟨0, _⟩ => show win3_3.index t (0 : Fin 2) * 5000 + 1 * p.val = win3_3.index t (0 : Fin 2) * 5000 + p.val; omega
    | ⟨1, _⟩ => show win3_3.index t (1 : Fin 2) * 128 + 1 * q.val = q.val; omega
  show k3_pay1 (iblk3 V c 0 t) (iblk3 V c 1 t) (iblk3 V c 2 t) (ix2 p q)
    = addf (F := Ideal) (Cert.Spec.biasRowOf (V c main_v61) (V c main_v62)) (V c main_arg0) (((cfg3.win 3).blk t).view.emb (ix2 p q))
  rw [hemb]
  refine (pay3_apply _ _ _ p q).trans (Eq.trans ?_ (congrArg (fun z => z + V c main_arg0 (ix2 (⟨win3_3.index t (0 : Fin 2) * 5000 + p.val, hr⟩ : Fin 50000) q)) (biasRowOf_apply _ _ _ q)).symm)
  have h0 : iblk3 V c 0 t (ix2 p q) = V c main_v61 (ix2 (⟨win3_3.index t (0 : Fin 2) * 5000 + p.val, hr⟩ : Fin 50000) q) := by
    show V c main_v61 (((cfg3.win 0).blk t).view.emb (ix2 p q)) = _
    refine congrArg (V c main_v61) ?_
    funext a; apply Fin.ext
    match a with
    | ⟨0, _⟩ => show win3_0.index t (0 : Fin 2) * 5000 + 1 * p.val = win3_3.index t (0 : Fin 2) * 5000 + p.val; omega
    | ⟨1, _⟩ => show win3_0.index t (1 : Fin 2) * 128 + 1 * q.val = q.val; omega
  have h1 : iblk3 V c 1 t (ix2 0 q) = V c main_v62 (ix2 0 q) := by
    show V c main_v62 (((cfg3.win 1).blk t).view.emb (ix2 0 q)) = _
    refine congrArg (V c main_v62) ?_
    funext a; apply Fin.ext
    match a with
    | ⟨0, _⟩ => show win3_1.index t (0 : Fin 2) * 1 + 1 * 0 = 0; omega
    | ⟨1, _⟩ => show win3_1.index t (1 : Fin 2) * 128 + 1 * q.val = q.val; omega
  have h2 : iblk3 V c 2 t (ix2 p q) = V c main_arg0 (ix2 (⟨win3_3.index t (0 : Fin 2) * 5000 + p.val, hr⟩ : Fin 50000) q) := by
    show V c main_arg0 (((cfg3.win 2).blk t).view.emb (ix2 p q)) = _
    refine congrArg (V c main_arg0) ?_
    funext a; apply Fin.ext
    match a with
    | ⟨0, _⟩ => show win3_2.index t (0 : Fin 2) * 5000 + 1 * p.val = win3_3.index t (0 : Fin 2) * 5000 + p.val; omega
    | ⟨1, _⟩ => show win3_2.index t (1 : Fin 2) * 128 + 1 * q.val = q.val; omega
  rw [h0, h1, h2]

/-- An index of the output array is in point `t`'s block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v63).slice (win3_3.rect t)).set ↔ _
  rw [View.set_slice_whole, Rect.mem_set_unit]
  exact Iff.rfl

/-- Every index of the output array is in some point's block: the point of its row block. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := onto3 ⟨(i 0).val / 5000, by omega⟩
  have ht' : win3_3.index t (0 : Fin 2) = (i 0).val / 5000 := ht
  obtain ⟨e0, e1, e2, e3, e4, e5, e6, e7⟩ := idx3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The region's output array ends as the biased input array plus the residual array. -/
theorem post3 (c : Dev nD) : (dat3 V c).arrAt 3 cfg3.N = addf (F := Ideal) (Cert.Spec.biasRowOf (V c main_v61) (V c main_v62)) (V c main_arg0) :=
  (dat3 V c).arrAt_eq_of_cover 3 _ (fun t _ => flushed3 V c t) (cover3)

end Cert.KernelIdeal.Post

end
-- ==== Proof.KValue.lean ====
/-
  The kernel program's buffers at each boundary of its run, as stages of the network.

  The run alternates host stretches and regions. Reading the boundaries in order: the edge lists, the degrees and the edge
  weights come from the first three stretches; each product region leaves the product of its input with a transposed weight
  matrix; each stretch between a product and an epilogue leaves one propagation step of that product; the first epilogue
  leaves the positive part of the biased step, the second the biased step plus the input. Buffers a stretch or a region does
  not write are carried across it unchanged.
-/
import proofs.«164835_j54700703482252_1_alg».proof.Proof.KHost
import proofs.«164835_j54700703482252_1_alg».proof.Proof.KProd
import proofs.«164835_j54700703482252_1_alg».proof.Proof.KProd2
import proofs.«164835_j54700703482252_1_alg».proof.Proof.KPost

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Host Cert.Spec

variable (m : (ℓ : Loc nD τ sig) → Buf (Elt Ideal) ℓ) (ρ : Dev nD → PrngReg) (c : Dev nD)

/-- The six arguments as the launch memory holds them. -/
abbrev aX : FVec Ideal Cert.ReferenceIdeal.S50000x128 .f32 := m ((c : Thread nD τ).loc main_arg0)
abbrev aE : (⟨Cert.ReferenceIdeal.S2x1600000, .i32⟩ : BufTy).Contents (Elt Ideal) := m ((c : Thread nD τ).loc main_arg1)
abbrev aW1 : FVec Ideal Cert.ReferenceIdeal.S128x128 .f32 := m ((c : Thread nD τ).loc main_arg2)
abbrev aB1 : FVec Ideal Cert.ReferenceIdeal.S128 .f32 := m ((c : Thread nD τ).loc main_arg3)
abbrev aW2 : FVec Ideal Cert.ReferenceIdeal.S128x128 .f32 := m ((c : Thread nD τ).loc main_arg4)
abbrev aB2 : FVec Ideal Cert.ReferenceIdeal.S128 .f32 := m ((c : Thread nD τ).loc main_arg5)

/-- The edge weights, from the edge list alone. -/
def nrmOf (e : (⟨Cert.ReferenceIdeal.S2x1600000, .i32⟩ : BufTy).Contents (Elt Ideal)) : FVec Ideal Cert.ReferenceIdeal.S1650000 .f32 :=
  normOf (invSqrtOf (degOf (colOf e))) (rowOf e) (colOf e)

/-- A bias vector as a 1×128 row, by a change of shape. -/
abbrev rowCast (b : FVec Ideal S128 .f32) : FVec Ideal S1x128 .f32 := shapeCast S1x128 b Facts₀.shapeCasts_S128_S1x128

/-! ## After the first stretch -/

theorem keep1_arg0 : W1 m ρ c (Proc.devRef .tc main_arg0) = W0 m ρ c (Proc.devRef .tc main_arg0) := by host_keeps hostOps0
theorem keep1_arg2 : W1 m ρ c (Proc.devRef .tc main_arg2) = W0 m ρ c (Proc.devRef .tc main_arg2) := by host_keeps hostOps0
theorem keep1_arg3 : W1 m ρ c (Proc.devRef .tc main_arg3) = W0 m ρ c (Proc.devRef .tc main_arg3) := by host_keeps hostOps0
theorem keep1_arg4 : W1 m ρ c (Proc.devRef .tc main_arg4) = W0 m ρ c (Proc.devRef .tc main_arg4) := by host_keeps hostOps0
theorem keep1_arg5 : W1 m ρ c (Proc.devRef .tc main_arg5) = W0 m ρ c (Proc.devRef .tc main_arg5) := by host_keeps hostOps0
theorem at1_v3 : W1 m ρ c (Proc.devRef .tc main_v3) = rowOf (aE m c) := row0 (W0 m ρ c)
theorem at1_v6 : W1 m ρ c (Proc.devRef .tc main_v6) = colOf (aE m c) := col0 (W0 m ρ c)
theorem at1_v12 : W1 m ρ c (Proc.devRef .tc main_v12)
    = cmpf .ogt (degOf (colOf (aE m c))) (broadcastInDim S50000 ![] Facts₀.bcast_S_S50000 (constant S_ .f32 0x00000000#32)) := gt0 (W0 m ρ c)
theorem at1_v13 : W1 m ρ c (Proc.devRef .tc main_v13) = Host.rsqrt (degOf (colOf (aE m c))) := rsq0 (W0 m ρ c)
theorem at1_cst_2 : W1 m ρ c (Proc.devRef .tc main_cst_2) = constant (F := Ideal) S_ .f32 0x00000000#32 := zero0 (W0 m ρ c)

/-! ## After the second stretch -/

theorem keep2_v3 : W2 m ρ c (Proc.devRef .tc main_v3) = W1 m ρ c (Proc.devRef .tc main_v3) := by host_keeps hostOps0_1
theorem keep2_v6 : W2 m ρ c (Proc.devRef .tc main_v6) = W1 m ρ c (Proc.devRef .tc main_v6) := by host_keeps hostOps0_1
theorem keep2_arg0 : W2 m ρ c (Proc.devRef .tc main_arg0) = W1 m ρ c (Proc.devRef .tc main_arg0) := by host_keeps hostOps0_1
theorem keep2_arg2 : W2 m ρ c (Proc.devRef .tc main_arg2) = W1 m ρ c (Proc.devRef .tc main_arg2) := by host_keeps hostOps0_1
theorem keep2_arg3 : W2 m ρ c (Proc.devRef .tc main_arg3) = W1 m ρ c (Proc.devRef .tc main_arg3) := by host_keeps hostOps0_1
theorem keep2_arg4 : W2 m ρ c (Proc.devRef .tc main_arg4) = W1 m ρ c (Proc.devRef .tc main_arg4) := by host_keeps hostOps0_1
theorem keep2_arg5 : W2 m ρ c (Proc.devRef .tc main_arg5) = W1 m ρ c (Proc.devRef .tc main_arg5) := by host_keeps hostOps0_1
theorem at2_v14 : W2 m ρ c (Proc.devRef .tc main_v14) = invSqrtOf (degOf (colOf (aE m c))) := by
  refine (isq1 (W1 m ρ c)).trans ?_
  rw [at1_v12, at1_v13, at1_cst_2]
  rfl

/-! ## After the third stretch: the first product's entry -/

theorem keep3_v3 : W3 m ρ c (Proc.devRef .tc main_v3) = W2 m ρ c (Proc.devRef .tc main_v3) := by host_keeps hostOps0_2
theorem keep3_v6 : W3 m ρ c (Proc.devRef .tc main_v6) = W2 m ρ c (Proc.devRef .tc main_v6) := by host_keeps hostOps0_2
theorem keep3_arg0 : W3 m ρ c (Proc.devRef .tc main_arg0) = W2 m ρ c (Proc.devRef .tc main_arg0) := by host_keeps hostOps0_2
theorem keep3_arg3 : W3 m ρ c (Proc.devRef .tc main_arg3) = W2 m ρ c (Proc.devRef .tc main_arg3) := by host_keeps hostOps0_2
theorem keep3_arg4 : W3 m ρ c (Proc.devRef .tc main_arg4) = W2 m ρ c (Proc.devRef .tc main_arg4) := by host_keeps hostOps0_2
theorem keep3_arg5 : W3 m ρ c (Proc.devRef .tc main_arg5) = W2 m ρ c (Proc.devRef .tc main_arg5) := by host_keeps hostOps0_2
theorem at3_v29 : W3 m ρ c (Proc.devRef .tc main_v29) = nrmOf (aE m c) := by
  refine (nrm2 (W2 m ρ c)).trans ?_
  rw [at2_v14, keep2_v3, keep2_v6, at1_v3, at1_v6]
  rfl
theorem at3_v30 : W3 m ρ c (Proc.devRef .tc main_v30) = transpose S128x128 [1, 0] (aW1 m c) Facts₀.transposes_S128x128_S128x128_1_0 := by
  refine (wt2 (W2 m ρ c)).trans ?_
  rw [keep2_arg2, keep1_arg2]
theorem at3_v3 : W3 m ρ c (Proc.devRef .tc main_v3) = rowOf (aE m c) := by rw [keep3_v3, keep2_v3, at1_v3]
theorem at3_v6 : W3 m ρ c (Proc.devRef .tc main_v6) = colOf (aE m c) := by rw [keep3_v6, keep2_v6, at1_v6]
theorem at3_arg0 : W3 m ρ c (Proc.devRef .tc main_arg0) = (aX m c) := by rw [keep3_arg0, keep2_arg0, keep1_arg0]
theorem at3_arg3 : W3 m ρ c (Proc.devRef .tc main_arg3) = (aB1 m c) := by rw [keep3_arg3, keep2_arg3, keep1_arg3]
theorem at3_arg4 : W3 m ρ c (Proc.devRef .tc main_arg4) = (aW2 m c) := by rw [keep3_arg4, keep2_arg4, keep1_arg4]
theorem at3_arg5 : W3 m ρ c (Proc.devRef .tc main_arg5) = (aB2 m c) := by rw [keep3_arg5, keep2_arg5, keep1_arg5]

/-! ## After the first product -/

theorem keep4_v3 : W4 m ρ c (Proc.devRef .tc main_v3) = W3 m ρ c (Proc.devRef .tc main_v3) := W4_of_ne m ρ c main_v3 (by decide)
theorem keep4_v6 : W4 m ρ c (Proc.devRef .tc main_v6) = W3 m ρ c (Proc.devRef .tc main_v6) := W4_of_ne m ρ c main_v6 (by decide)
theorem keep4_v29 : W4 m ρ c (Proc.devRef .tc main_v29) = W3 m ρ c (Proc.devRef .tc main_v29) := W4_of_ne m ρ c main_v29 (by decide)
theorem keep4_arg3 : W4 m ρ c (Proc.devRef .tc main_arg3) = W3 m ρ c (Proc.devRef .tc main_arg3) := W4_of_ne m ρ c main_arg3 (by decide)
theorem keep4_arg4 : W4 m ρ c (Proc.devRef .tc main_arg4) = W3 m ρ c (Proc.devRef .tc main_arg4) := W4_of_ne m ρ c main_arg4 (by decide)
theorem keep4_arg5 : W4 m ρ c (Proc.devRef .tc main_arg5) = W3 m ρ c (Proc.devRef .tc main_arg5) := W4_of_ne m ρ c main_arg5 (by decide)
theorem keep4_arg0 : W4 m ρ c (Proc.devRef .tc main_arg0) = W3 m ρ c (Proc.devRef .tc main_arg0) :=
  (W4_arr m ρ c 0).trans (((dat0 (V3 m ρ) c).arrAt_in 0 rfl _).trans (A_eq0 (V3 m ρ) c 0))
theorem at4_v31 : W4 m ρ c (Proc.devRef .tc main_v31) = prodOf (aX m c) (transpose S128x128 [1, 0] (aW1 m c) Facts₀.transposes_S128x128_S128x128_1_0) := by
  refine ((W4_arr m ρ c 2).trans (Prod.prod0 (V3 m ρ) c)).trans ?_
  show prodOf (F := Ideal) (W3 m ρ c (Proc.devRef .tc main_arg0)) (W3 m ρ c (Proc.devRef .tc main_v30)) = _
  rw [at3_arg0, at3_v30]

/-! ## After the stretch behind it: the first epilogue's entry -/

theorem keep5_v3 : W5 m ρ c (Proc.devRef .tc main_v3) = W4 m ρ c (Proc.devRef .tc main_v3) := by host_keeps hostOps1
theorem keep5_v6 : W5 m ρ c (Proc.devRef .tc main_v6) = W4 m ρ c (Proc.devRef .tc main_v6) := by host_keeps hostOps1
theorem keep5_v29 : W5 m ρ c (Proc.devRef .tc main_v29) = W4 m ρ c (Proc.devRef .tc main_v29) := by host_keeps hostOps1
theorem keep5_arg0 : W5 m ρ c (Proc.devRef .tc main_arg0) = W4 m ρ c (Proc.devRef .tc main_arg0) := by host_keeps hostOps1
theorem keep5_arg4 : W5 m ρ c (Proc.devRef .tc main_arg4) = W4 m ρ c (Proc.devRef .tc main_arg4) := by host_keeps hostOps1
theorem keep5_arg5 : W5 m ρ c (Proc.devRef .tc main_arg5) = W4 m ρ c (Proc.devRef .tc main_arg5) := by host_keeps hostOps1
/-- The first propagation step. -/
abbrev step1 : FVec Ideal Cert.ReferenceIdeal.S50000x128 .f32 :=
  aggOf (prodOf (aX m c) (transpose S128x128 [1, 0] (aW1 m c) Facts₀.transposes_S128x128_S128x128_1_0)) (rowOf (aE m c)) (colOf (aE m c)) (nrmOf (aE m c))
theorem at5_v44 : W5 m ρ c (Proc.devRef .tc main_v44) = step1 m c := by
  refine (agg3 (W4 m ρ c)).trans ?_
  rw [at4_v31, keep4_v3, keep4_v6, keep4_v29, at3_v3, at3_v6, at3_v29]
theorem at5_v45 : W5 m ρ c (Proc.devRef .tc main_v45) = rowCast (aB1 m c) := by
  refine (bias3 (W4 m ρ c)).trans ?_
  rw [keep4_arg3, at3_arg3]

/-! ## After the first epilogue -/

theorem keep6_v3 : W6 m ρ c (Proc.devRef .tc main_v3) = W5 m ρ c (Proc.devRef .tc main_v3) := W6_of_ne m ρ c main_v3 (by decide)
theorem keep6_v6 : W6 m ρ c (Proc.devRef .tc main_v6) = W5 m ρ c (Proc.devRef .tc main_v6) := W6_of_ne m ρ c main_v6 (by decide)
theorem keep6_v29 : W6 m ρ c (Proc.devRef .tc main_v29) = W5 m ρ c (Proc.devRef .tc main_v29) := W6_of_ne m ρ c main_v29 (by decide)
theorem keep6_arg0 : W6 m ρ c (Proc.devRef .tc main_arg0) = W5 m ρ c (Proc.devRef .tc main_arg0) := W6_of_ne m ρ c main_arg0 (by decide)
theorem keep6_arg4 : W6 m ρ c (Proc.devRef .tc main_arg4) = W5 m ρ c (Proc.devRef .tc main_arg4) := W6_of_ne m ρ c main_arg4 (by decide)
theorem keep6_arg5 : W6 m ρ c (Proc.devRef .tc main_arg5) = W5 m ρ c (Proc.devRef .tc main_arg5) := W6_of_ne m ρ c main_arg5 (by decide)
/-- The first layer's activations. -/
abbrev act1 : FVec Ideal Cert.ReferenceIdeal.S50000x128 .f32 := reluOf (biasRowOf (step1 m c) (rowCast (aB1 m c)))
theorem at6_v46 : W6 m ρ c (Proc.devRef .tc main_v46) = act1 m c := by
  refine ((W6_arr m ρ c 2).trans (Post.post1 (V5 m ρ) c)).trans ?_
  show reluOf (F := Ideal) (biasRowOf (W5 m ρ c (Proc.devRef .tc main_v44)) (W5 m ρ c (Proc.devRef .tc main_v45))) = _
  rw [at5_v44, at5_v45]

/-! ## After the one transposition: the second product's entry -/

theorem keep7_v46 : W7 m ρ c (Proc.devRef .tc main_v46) = W6 m ρ c (Proc.devRef .tc main_v46) := by host_keeps hostOps2
theorem keep7_v3 : W7 m ρ c (Proc.devRef .tc main_v3) = W6 m ρ c (Proc.devRef .tc main_v3) := by host_keeps hostOps2
theorem keep7_v6 : W7 m ρ c (Proc.devRef .tc main_v6) = W6 m ρ c (Proc.devRef .tc main_v6) := by host_keeps hostOps2
theorem keep7_v29 : W7 m ρ c (Proc.devRef .tc main_v29) = W6 m ρ c (Proc.devRef .tc main_v29) := by host_keeps hostOps2
theorem keep7_arg0 : W7 m ρ c (Proc.devRef .tc main_arg0) = W6 m ρ c (Proc.devRef .tc main_arg0) := by host_keeps hostOps2
theorem keep7_arg5 : W7 m ρ c (Proc.devRef .tc main_arg5) = W6 m ρ c (Proc.devRef .tc main_arg5) := by host_keeps hostOps2
theorem at7_v47 : W7 m ρ c (Proc.devRef .tc main_v47) = transpose S128x128 [1, 0] (aW2 m c) Facts₀.transposes_S128x128_S128x128_1_0 := by
  refine (wt4 (W6 m ρ c)).trans ?_
  rw [keep6_arg4, keep5_arg4, keep4_arg4, at3_arg4]

/-! ## After the second product -/

theorem keep8_v3 : W8 m ρ c (Proc.devRef .tc main_v3) = W7 m ρ c (Proc.devRef .tc main_v3) := W8_of_ne m ρ c main_v3 (by decide)
theorem keep8_v6 : W8 m ρ c (Proc.devRef .tc main_v6) = W7 m ρ c (Proc.devRef .tc main_v6) := W8_of_ne m ρ c main_v6 (by decide)
theorem keep8_v29 : W8 m ρ c (Proc.devRef .tc main_v29) = W7 m ρ c (Proc.devRef .tc main_v29) := W8_of_ne m ρ c main_v29 (by decide)
theorem keep8_arg0 : W8 m ρ c (Proc.devRef .tc main_arg0) = W7 m ρ c (Proc.devRef .tc main_arg0) := W8_of_ne m ρ c main_arg0 (by decide)
theorem keep8_arg5 : W8 m ρ c (Proc.devRef .tc main_arg5) = W7 m ρ c (Proc.devRef .tc main_arg5) := W8_of_ne m ρ c main_arg5 (by decide)
theorem at8_v48 : W8 m ρ c (Proc.devRef .tc main_v48) = prodOf (act1 m c) (transpose S128x128 [1, 0] (aW2 m c) Facts₀.transposes_S128x128_S128x128_1_0) := by
  refine ((W8_arr m ρ c 2).trans (Prod2.prod2 (V7 m ρ) c)).trans ?_
  show prodOf (F := Ideal) (W7 m ρ c (Proc.devRef .tc main_v46)) (W7 m ρ c (Proc.devRef .tc main_v47)) = _
  rw [keep7_v46, at6_v46, at7_v47]
theorem at8_v3 : W8 m ρ c (Proc.devRef .tc main_v3) = rowOf (aE m c) := by rw [keep8_v3, keep7_v3, keep6_v3, keep5_v3, keep4_v3, at3_v3]
theorem at8_v6 : W8 m ρ c (Proc.devRef .tc main_v6) = colOf (aE m c) := by rw [keep8_v6, keep7_v6, keep6_v6, keep5_v6, keep4_v6, at3_v6]
theorem at8_v29 : W8 m ρ c (Proc.devRef .tc main_v29) = nrmOf (aE m c) := by rw [keep8_v29, keep7_v29, keep6_v29, keep5_v29, keep4_v29, at3_v29]
theorem at8_arg0 : W8 m ρ c (Proc.devRef .tc main_arg0) = (aX m c) := by rw [keep8_arg0, keep7_arg0, keep6_arg0, keep5_arg0, keep4_arg0, at3_arg0]
theorem at8_arg5 : W8 m ρ c (Proc.devRef .tc main_arg5) = (aB2 m c) := by rw [keep8_arg5, keep7_arg5, keep6_arg5, keep5_arg5, keep4_arg5, at3_arg5]

/-! ## After the last stretch: the second epilogue's entry -/

theorem keep9_arg0 : W9 m ρ c (Proc.devRef .tc main_arg0) = W8 m ρ c (Proc.devRef .tc main_arg0) := by host_keeps hostOps3
/-- The second propagation step. -/
abbrev step2 : FVec Ideal Cert.ReferenceIdeal.S50000x128 .f32 :=
  aggOf (prodOf (act1 m c) (transpose S128x128 [1, 0] (aW2 m c) Facts₀.transposes_S128x128_S128x128_1_0)) (rowOf (aE m c)) (colOf (aE m c)) (nrmOf (aE m c))
theorem at9_v61 : W9 m ρ c (Proc.devRef .tc main_v61) = step2 m c := by
  refine (agg5 (W8 m ρ c)).trans ?_
  rw [at8_v48, at8_v3, at8_v6, at8_v29]
theorem at9_v62 : W9 m ρ c (Proc.devRef .tc main_v62) = rowCast (aB2 m c) := by
  refine (bias5 (W8 m ρ c)).trans ?_
  rw [at8_arg5]

/-! ## After the second epilogue: the result -/

theorem at10_v63 : W10 m ρ c (Proc.devRef .tc main_v63) = addf (biasRowOf (step2 m c) (rowCast (aB2 m c))) (aX m c) := by
  refine ((W10_arr m ρ c 3).trans (Post.post3 (V9 m ρ) c)).trans ?_
  show addf (F := Ideal) (biasRowOf (W9 m ρ c (Proc.devRef .tc main_v61)) (W9 m ρ c (Proc.devRef .tc main_v62))) (W9 m ρ c (Proc.devRef .tc main_arg0)) = _
  rw [at9_v61, at9_v62, keep9_arg0, at8_arg0]

end Cert.KernelIdeal.Value

end
-- ==== Proof.KOut.lean ====
/-
  The kernel program's result buffer ends as the network function of its arguments.

  The stages read off the run's boundaries compose to the network: the one difference of spelling is the bias vector made a
  1×128 row by a change of shape where the network's definition spreads it along a new leading axis; both rows hold
  entry q of the vector at (0, q).
-/
import proofs.«164835_j54700703482252_1_alg».proof.Proof.KValue
import Idealize.ShloMosaic.Lib.Pipeline.Value
import Idealize.ShloMosaic.Lib.ValueIdx

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen Cert.Spec

/-- The two spellings of a vector as a 1×128 row agree. -/
theorem rowCast_eq (b : FVec Ideal S128 .f32) :
    rowCast b = broadcastInDim Cert.ReferenceIdeal.S1x128 ![1] Cert.ReferenceIdeal.Facts₀.bcast_S128_S1x128_1 b := by
  funext j
  obtain ⟨z, q, rfl⟩ : ∃ (z : Fin 1) (q : Fin 128), j = ix2 z q := ⟨j 0, j 1, eq_ix2 j⟩
  have hz : z.val = 0 := by omega
  have h1 : shapeCast S1x128 b Facts₀.shapeCasts_S128_S1x128 (ix2 z q) = b (ix1 q) :=
    shapeCast_apply b _ (ix2 z q) (ix1 q) (by
      rw [Shape.rowMajor_val_one, Shape.rowMajor_val_two]
      show q.val = z.val * 128 + q.val
      omega)
  have h2 : broadcastInDim Cert.ReferenceIdeal.S1x128 ![1] Cert.ReferenceIdeal.Facts₀.bcast_S128_S1x128_1 b (ix2 z q) = b (ix1 q) :=
    broadcastInDim_apply _ _ b (ix2 z q) (ix1 q) (fun a => by match a with | ⟨0, _⟩ => rfl)
  exact h1.trans h2.symm

variable (m : (ℓ : Loc nD τ sig) → Buf (Elt Ideal) ℓ) (ρ : Dev nD → PrngReg) (c : Dev nD)

/-- THE RESULT: after the run the result buffer holds the network function of the six arguments. -/
theorem result_eq : W10 m ρ c (Proc.devRef .tc main_v63)
    = outOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (at10_v63 m ρ c).trans ?_
  rw [rowCast_eq]
  unfold step2 act1
  rw [rowCast_eq]
  rfl

end Cert.KernelIdeal.Value

end
-- ==== Proof.RefTerm.lean ====
/-
  The reference program's result is the network function of its arguments: its run's composed term is that function's
  definition unfolded.
-/
import proofs.«164835_j54700703482252_1_alg».proof.Proof.RefRun
import proofs.«164835_j54700703482252_1_alg».proof.Proof.Spec

noncomputable section

namespace Cert.ReferenceIdeal.RefTerm

open Idealize.ShloMosaic Idealize.ShloMosaic.TcCoe Idealize.SL.Sem Cert.ReferenceIdeal Cert.ReferenceIdeal.ValueP

variable {F : FTy → Type} [FloatOps F]

set_option maxRecDepth 8192 in
theorem result_eq (m : (ℓ : Loc nD τ sig) → Buf (Elt F) ℓ) (c : Dev nD) :
    res_main_v97 m c = Cert.Spec.outOf (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

end Cert.ReferenceIdeal.RefTerm

end
-- ==== Proof.lean ====
/-
  A two-layer graph convolution with a residual: the kernel program against its reference, over the extended reals.

  Both programs compute out = propagate ((relu (propagate (x * W1ᵀ) + b1)) * W2ᵀ) + b2 + x, where propagate gathers the
  source rows of every edge (and of a self loop per node), weights each by the product of the inverse square roots of its
  two ends' degrees, and adds it into its target's row. The kernel program runs the two products and the two pointwise
  epilogues as tiled kernels over ten row blocks and everything else on the host with the reference's own operations; the
  reference computes the edge weights once per layer, the kernel program once.

  Over the extended reals nothing differs: narrowing a float before a product is the identity; a block's product row is
  the whole product's row, entry by entry the same sum over the 128 inner indices; the epilogues are the reference's
  pointwise stages read at a row. No law of arithmetic is used beyond reading the same sums and the same pointwise
  expressions on both sides, so the inputs' finiteness is never opened.

  The kernel program's run ends with its result buffer at the network function of the arguments (the boundaries of its
  run read in order), the reference's run ends at its operations' composed term, which is that function unfolded.
-/
import proofs.«164835_j54700703482252_1_alg».proof.Defs
import proofs.«164835_j54700703482252_1_alg».proof.Proof.Gen.Kernel
import proofs.«164835_j54700703482252_1_alg».proof.Proof.Gen.Kernel.Frame
import proofs.«164835_j54700703482252_1_alg».proof.Proof.Gen.KernelIdeal
import proofs.«164835_j54700703482252_1_alg».proof.Proof.Gen.KernelIdeal.Frame
import proofs.«164835_j54700703482252_1_alg».proof.Proof.Gen.ReferenceIdeal
import proofs.«164835_j54700703482252_1_alg».proof.Proof.Gen.Pre_finite_inputs
import proofs.«164835_j54700703482252_1_alg».proof.Proof.KRun
import proofs.«164835_j54700703482252_1_alg».proof.Proof.KOut
import proofs.«164835_j54700703482252_1_alg».proof.Proof.RefRun
import proofs.«164835_j54700703482252_1_alg».proof.Proof.RefTerm
import Idealize.ShloMosaic.Adequacy
import Idealize.ShloMosaic.Init

noncomputable section

namespace Cert.Proof

open Idealize.ShloMosaic Idealize.ShloMosaic.TcCoe Idealize.SL.Sem

/-- The kernel program terminates without a fault and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference terminates without a fault and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the network function of those arguments in their
    result buffers. -/
theorem algebraic : Cert.algebraic_KernelIdeal_ReferenceIdeal := by
  intro m ρ m' ρ' _ hagree
  refine ⟨fun c => Cert.Spec.outOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Value.result_eq m ρ c), (h c).2⟩)
      (Cert.KernelIdeal.GenP.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefTerm.result_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
